-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x16x2048 : Shape := ⟨4, ![4, 3, 16, 2048]⟩
abbrev S_ : Shape := ⟨0, ![]⟩

class Facts : Prop where
  bcast_S_S4x3x16x2048 : S_.BroadcastsInDim S4x3x16x2048 (![] : Fin 0 → Fin S4x3x16x2048.rank)
  reducesTo_S4x3x16x2048_S_d0_1_2_3 : S4x3x16x2048.ReducesTo [0, 1, 2, 3] S_
  h_S_ : 0 < S_.numel

variable [Facts]

def fn {F : FTy → Type} [FloatOps F] (main_arg0 : FVec F S4x3x16x2048 .f32) (main_arg1 : FVec F S4x3x16x2048 .f32) : IVec S_ 1 :=
  let main_v0 : FVec F S4x3x16x2048 .f32 := Host.absf main_arg0
  let main_cst : FVec F S_ .f32 := constant S_ .f32 0x7F800000#32
  let main_v1 : FVec F S4x3x16x2048 .f32 := broadcastInDim S4x3x16x2048 ![] bcast_S_S4x3x16x2048 main_cst
  let main_v2 : IVec S4x3x16x2048 1 := cmpf .olt main_v0 main_v1
  let main_c : IVec S_ 1 := constantI S_ 1 1#1
  let main_v3 : IVec S_ 1 := (fun x v => Host.reduce IntOp.andi x v reducesTo_S4x3x16x2048_S_d0_1_2_3 h_S_) main_v2 main_c
  let main_v4 : FVec F S4x3x16x2048 .f32 := Host.absf main_arg1
  let main_cst_0 : FVec F S_ .f32 := constant S_ .f32 0x7F800000#32
  let main_v5 : FVec F S4x3x16x2048 .f32 := broadcastInDim S4x3x16x2048 ![] bcast_S_S4x3x16x2048 main_cst_0
  let main_v6 : IVec S4x3x16x2048 1 := cmpf .olt main_v4 main_v5
  let main_c_1 : IVec S_ 1 := constantI S_ 1 1#1
  let main_v7 : IVec S_ 1 := (fun x v => Host.reduce IntOp.andi x v reducesTo_S4x3x16x2048_S_d0_1_2_3 h_S_) main_v6 main_c_1
  let main_v8 : IVec S_ 1 := andi main_v3 main_v7
  main_v8
-- ==== Kernel.lean ====
abbrev S4x3x16x2048 : Shape := ⟨4, ![4, 3, 16, 2048]⟩
abbrev S1x1 : Shape := ⟨2, ![1, 1]⟩
abbrev S1x3x16x2048 : Shape := ⟨4, ![1, 3, 16, 2048]⟩
abbrev S2048x2048 : Shape := ⟨2, ![2048, 2048]⟩
abbrev S3x16x2048 : Shape := ⟨3, ![3, 16, 2048]⟩
abbrev S3x1x2048 : Shape := ⟨3, ![3, 1, 2048]⟩
abbrev S3x2048 : Shape := ⟨2, ![3, 2048]⟩
abbrev S2048 : Shape := ⟨1, ![2048]⟩
abbrev S1x2048 : Shape := ⟨2, ![1, 2048]⟩
abbrev S2048x1 : Shape := ⟨2, ![2048, 1]⟩
abbrev S2048x3 : Shape := ⟨2, ![2048, 3]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4x3x16x2048, .f32⟩
  | .hbm, ⟨1, _⟩ => ⟨S4x3x16x2048, .f32⟩
  | .hbm, ⟨2, _⟩ => ⟨S1x1, .f32⟩
  | .hbm, ⟨3, _⟩ => ⟨S_, .f32⟩
  | .local _ .vmem, ⟨0, _⟩ => ⟨S1x3x16x2048, .f32⟩
  | .local _ .vmem, ⟨1, _⟩ => ⟨S1x3x16x2048, .f32⟩
  | .local _ .vmem, ⟨2, _⟩ => ⟨S1x3x16x2048, .f32⟩
  | .local _ .vmem, ⟨3, _⟩ => ⟨S1x3x16x2048, .f32⟩
  | .local _ .vmem, ⟨4, _⟩ => ⟨S1x1, .f32⟩
  | .local _ .vmem, ⟨5, _⟩ => ⟨S2048x2048, .f32⟩
  | _, _ => ⟨S4x3x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x3x16x2048_S1x3x16x2048_0_0_0_0 : ∀ a, (![0, 0, 0, 0] : Fin 4 → Nat) a + S1x3x16x2048.size a ≤ S1x3x16x2048.size a
  h_S1x3x16x2048 : 0 < S1x3x16x2048.numel
  shapeCasts_S1x3x16x2048_S3x16x2048 : S1x3x16x2048.ShapeCasts S3x16x2048
  slices_S3x16x2048_o0_0_0_S3x1x2048 : S3x16x2048.Slices ![0, 0, 0] S3x1x2048
  shapeCasts_S3x1x2048_S3x2048 : S3x1x2048.ShapeCasts S3x2048
  reduces_S3x2048_S2048 : S3x2048.Reduces [0] S2048
  shapeCasts_S2048_S1x2048 : S2048.ShapeCasts S1x2048
  transposes_S1x2048_p1_0_S2048x1 : S1x2048.Transposes [1, 0] S2048x1
  bitsLt_bf16_f32 : FTy.bits .bf16 < FTy.bits .f32
  transposes_S3x2048_p1_0_S2048x3 : S3x2048.Transposes [1, 0] S2048x3
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S2048x1_S2048x2048 : S2048x1.Broadcasts S2048x2048
  broadcasts_S1x2048_S2048x2048 : S1x2048.Broadcasts S2048x2048
  reduces_S2048x2048_S2048 : S2048x2048.Reduces [0] S2048
  reduces_S1x2048_S1 : S1x2048.Reduces [1] S1
  shapeCasts_S1_S1x1 : S1.ShapeCasts S1x1
  reduces_S2048x2048_S2048_2 : S2048x2048.Reduces [1] S2048
  shapeCasts_S2048_S2048x1 : S2048.ShapeCasts S2048x1
  reduces_S2048x1_S1 : S2048x1.Reduces [0] S1
  slices_S3x16x2048_o0_1_0_S3x1x2048 : S3x16x2048.Slices ![0, 1, 0] S3x1x2048
  slices_S3x16x2048_o0_2_0_S3x1x2048 : S3x16x2048.Slices ![0, 2, 0] S3x1x2048
  slices_S3x16x2048_o0_3_0_S3x1x2048 : S3x16x2048.Slices ![0, 3, 0] S3x1x2048
  slices_S3x16x2048_o0_4_0_S3x1x2048 : S3x16x2048.Slices ![0, 4, 0] S3x1x2048
  slices_S3x16x2048_o0_5_0_S3x1x2048 : S3x16x2048.Slices ![0, 5, 0] S3x1x2048
  slices_S3x16x2048_o0_6_0_S3x1x2048 : S3x16x2048.Slices ![0, 6, 0] S3x1x2048
  slices_S3x16x2048_o0_7_0_S3x1x2048 : S3x16x2048.Slices ![0, 7, 0] S3x1x2048
  slices_S3x16x2048_o0_8_0_S3x1x2048 : S3x16x2048.Slices ![0, 8, 0] S3x1x2048
  slices_S3x16x2048_o0_9_0_S3x1x2048 : S3x16x2048.Slices ![0, 9, 0] S3x1x2048
  slices_S3x16x2048_o0_10_0_S3x1x2048 : S3x16x2048.Slices ![0, 10, 0] S3x1x2048
  slices_S3x16x2048_o0_11_0_S3x1x2048 : S3x16x2048.Slices ![0, 11, 0] S3x1x2048
  slices_S3x16x2048_o0_12_0_S3x1x2048 : S3x16x2048.Slices ![0, 12, 0] S3x1x2048
  slices_S3x16x2048_o0_13_0_S3x1x2048 : S3x16x2048.Slices ![0, 13, 0] S3x1x2048
  slices_S3x16x2048_o0_14_0_S3x1x2048 : S3x16x2048.Slices ![0, 14, 0] S3x1x2048
  slices_S3x16x2048_o0_15_0_S3x1x2048 : S3x16x2048.Slices ![0, 15, 0] S3x1x2048
  shapeCasts_S1x1_S1x1 : S1x1.ShapeCasts S1x1
  shapeCasts_S1x1_S_ : S1x1.ShapeCasts S_
  dot_S2048x3_S2048x3_S2048x2048_1_1_0_0_n_n_wf : DotDims.WF S2048x3 S2048x3 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x2048.size a ≤ S4x3x16x2048.size a
  hwx0_0 : ∀ i : grid0.Coords, EltTy.bits .f32 = 32 ∨ (Rect.block (s := S4x3x16x2048) S1x3x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x16x2048.size a ≤ S4x3x16x2048.size a
  hwx0_1 : ∀ i : grid0.Coords, EltTy.bits .f32 = 32 ∨ (Rect.block (s := S4x3x16x2048) S1x3x16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S2048x3_S2048x3_S2048x2048_1_1_0_0_n_n : DotDims S2048x3 S2048x3 S2048x2048 where
  lhsContracting := [1]
  rhsContracting := [1]
  lhsNonContracting := [0]
  rhsNonContracting := [0]
  lhsBatch := []
  rhsBatch := []
  wf := dot_S2048x3_S2048x3_S2048x2048_1_1_0_0_n_n_wf

abbrev win0_0 : Pipeline.Window sig grid0 :=
  Pipeline.Window.ofSpec (Memref.whole main_arg0) S1x3x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x16x2048 : Shape := ⟨4, ![4, 3, 16, 2048]⟩
abbrev S4x16x2048x3 : Shape := ⟨4, ![4, 16, 2048, 3]⟩
abbrev S_ : Shape := ⟨0, ![]⟩
abbrev S4x16x2048 : Shape := ⟨3, ![4, 16, 2048]⟩
abbrev S4x16x2048x2048 : Shape := ⟨4, ![4, 16, 2048, 2048]⟩
abbrev S4x16x2048x1 : Shape := ⟨4, ![4, 16, 2048, 1]⟩
abbrev S4x16x1x2048 : Shape := ⟨4, ![4, 16, 1, 2048]⟩
abbrev S4x16 : Shape := ⟨2, ![4, 16]⟩

abbrev nBuf : Space → Nat
  | .hbm => 33
  | .vmem => 0
  | .smem => 0
  | _ => 0

abbrev bufTy : (tb : Table) → Fin (tcTables nBuf tb) → BufTy
  | .hbm, ⟨0, _⟩ => ⟨S4x3x16x2048, .f32⟩
  | .hbm, ⟨1, _⟩ => ⟨S4x3x16x2048, .f32⟩
  | .hbm, ⟨2, _⟩ => ⟨S4x16x2048x3, .f32⟩
  | .hbm, ⟨3, _⟩ => ⟨S4x16x2048x3, .f32⟩
  | .hbm, ⟨4, _⟩ => ⟨S4x16x2048x3, .f32⟩
  | .hbm, ⟨5, _⟩ => ⟨S_, .f32⟩
  | .hbm, ⟨6, _⟩ => ⟨S4x16x2048, .f32⟩
  | .hbm, ⟨7, _⟩ => ⟨S4x16x2048x3, .f32⟩
  | .hbm, ⟨8, _⟩ => ⟨S_, .f32⟩
  | .hbm, ⟨9, _⟩ => ⟨S4x16x2048, .f32⟩
  | .hbm, ⟨10, _⟩ => ⟨S4x16x2048x2048, .f32⟩
  | .hbm, ⟨11, _⟩ => ⟨S4x16x2048x1, .f32⟩
  | .hbm, ⟨12, _⟩ => ⟨S4x16x1x2048, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S4x16x2048x2048, .f32⟩
  | .hbm, ⟨20, _⟩ => ⟨S_, .f32⟩
  | .hbm, ⟨21, _⟩ => ⟨S4x16x2048, .f32⟩
  | .hbm, ⟨22, _⟩ => ⟨S_, .f32⟩
  | .hbm, ⟨23, _⟩ => ⟨S4x16, .f32⟩
  | .hbm, ⟨24, _⟩ => ⟨S_, .f32⟩
  | .hbm, ⟨25, _⟩ => ⟨S4x16x2048, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4x3x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  transposes_S4x3x16x2048_S4x16x2048x3_0_2_3_1 : S4x3x16x2048.Transposes [0, 2, 3, 1] S4x16x2048x3
  reducesTo_S4x16x2048x3_S4x16x2048_d3 : S4x16x2048x3.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S4x16x2048_S4x16x1x2048_0_1_3 : S4x16x2048.BroadcastsInDim S4x16x1x2048 (![0, 1, 3] : Fin 3 → Fin S4x16x1x2048.rank)
  bcast_S4x16x2048x1_S4x16x2048x2048_0_1_2_3 : S4x16x2048x1.BroadcastsInDim S4x16x2048x2048 (![0, 1, 2, 3] : Fin 4 → Fin S4x16x2048x2048.rank)
  bcast_S4x16x1x2048_S4x16x2048x2048_0_1_2_3 : S4x16x1x2048.BroadcastsInDim S4x16x2048x2048 (![0, 1, 2, 3] : Fin 4 → Fin S4x16x2048x2048.rank)
  bcast_S_S4x16x2048x2048 : S_.BroadcastsInDim S4x16x2048x2048 (![] : Fin 0 → Fin S4x16x2048x2048.rank)
  reducesTo_S4x16x2048x2048_S4x16x2048_d2 : S4x16x2048x2048.ReducesTo [2] S4x16x2048
  reducesTo_S4x16x2048_S4x16_d2 : S4x16x2048.ReducesTo [2] S4x16
  reducesTo_S4x16x2048x2048_S4x16x2048_d3 : S4x16x2048x2048.ReducesTo [3] S4x16x2048
  reducesTo_S4x16_S_d0_1 : S4x16.ReducesTo [0, 1] S_
  dot_S4x16x2048x3_S4x16x2048x3_S4x16x2048x2048_3_3_2_2_01_01_wf : DotDims.WF S4x16x2048x3 S4x16x2048x3 S4x16x2048x2048 [3] [3] [2] [2] [0, 1] [0, 1]

variable [Facts₀]

def dot_S4x16x2048x3_S4x16x2048x3_S4x16x2048x2048_3_3_2_2_01_01 : DotDims S4x16x2048x3 S4x16x2048x3 S4x16x2048x2048 where
  lhsContracting := [3]
  rhsContracting := [3]
  lhsNonContracting := [2]
  rhsNonContracting := [2]
  lhsBatch := [0, 1]
  rhsBatch := [0, 1]
  wf := dot_S4x16x2048x3_S4x16x2048x3_S4x16x2048x2048_3_3_2_2_01_01_wf

class Facts : Prop extends Facts₀ where

variable [Facts]
-- ==== Proof.KernelIter.lean ====
/-
  One frame's work of the kernel body, as ONE function of the frame number.

  The body is unrolled over the 16 frames of a block; every frame does the same thing to the running (1,1)
  accumulator: cut frame `it` out of the two [3, 16, 2048] blocks, form the 2048 × 2048 matrix
  `|x_n|² + |y_m|² − 2·⟨x_n, y_m⟩` (the inner products by the matrix unit on bf16 copies into a zero accumulator,
  the matrix passing through the scratch, which only adds identity casts), take its column minima and sum them,
  its row minima and sum them, and add both sums to the accumulator. The definitions below spell that with the
  operations the printed body uses, at any float instance, so that each unrolled copy is literally `step` at its
  frame number.
-/
import proofs.«172351_j84782654423732_1_alg».proof.Proof.Gen.KernelIdeal.Skeleton

noncomputable section

namespace Cert.KernelIdeal.Iter

open Idealize.ShloMosaic Idealize.SL.Sem Cert.KernelIdeal Cert.KernelIdeal.Gen

variable {F : FTy → Type} [FloatOps F]

/-- Every frame number names a [3, 1, 2048] slice of a [3, 16, 2048] block. -/
theorem slices_at : ∀ it : Fin 16, S3x16x2048.Slices ![0, it.val, 0] S3x1x2048 := by decide

/-- Frame `it` of a block: its 2048 points by coordinate, a [3, 2048] vector. -/
def frame (it : Fin 16) (v : FVec F S3x16x2048 .f32) : FVec F S3x2048 .f32 :=
  shapeCast S3x2048 (extractStridedSlice S3x1x2048 ![0, it.val, 0] v (slices_at it)) shapeCasts_S3x1x2048_S3x2048

/-- The squared norms of a frame's points, as a row. -/
def sqnorm (p : FVec F S3x2048 .f32) : FVec F S1x2048 .f32 :=
  shapeCast S1x2048 (multiReduction .add [0] S2048 (mulf p p) 0x00000000#32 reduces_S3x2048_S2048 (.inl rfl) rfl) shapeCasts_S2048_S1x2048

/-- The inner products of every point of `px` with every point of `py`, as the body stores them in the scratch. -/
def cross (px py : FVec F S3x2048 .f32) : FVec F S2048x2048 .f32 :=
  shapeCast S2048x2048
    (matmul dot_S2048x3_S2048x3_S2048x2048_1_1_0_0_n_n none
      (transpose S2048x3 [1, 0] (truncf .bf16 px bitsLt_bf16_f32) transposes_S3x2048_p1_0_S2048x3)
      (transpose S2048x3 [1, 0] (truncf .bf16 py bitsLt_bf16_f32) transposes_S3x2048_p1_0_S2048x3)
      (constant S2048x2048 .f32 0x00000000#32))
    shapeCasts_S2048x2048_S2048x2048

/-- The matrix of squared distances, as the body stores it back in the scratch. -/
def dist (px py : FVec F S3x2048 .f32) : FVec F S2048x2048 .f32 :=
  shapeCast S2048x2048
    (subf
      (addf (broadcastTo S2048x2048 (transpose S2048x1 [1, 0] (sqnorm px) transposes_S1x2048_p1_0_S2048x1) broadcasts_S2048x1_S2048x2048)
        (broadcastTo S2048x2048 (sqnorm py) broadcasts_S1x2048_S2048x2048))
      (mulf (broadcast S2048x2048 (Scalar.ofBits .f32 0x40000000#32)) (cross px py)))
    shapeCasts_S2048x2048_S2048x2048

/-- The column minima of a matrix, summed. -/
def colMinSum (P : FVec F S2048x2048 .f32) : FVec F S1x1 .f32 :=
  shapeCast S1x1
    (multiReduction .add [1] S1
      (shapeCast S1x2048 (multiReduction .minimumf [0] S2048 P 0x7F800000#32 reduces_S2048x2048_S2048 (.inl rfl) rfl) shapeCasts_S2048_S1x2048)
      0x00000000#32 reduces_S1x2048_S1 (.inl rfl) rfl)
    shapeCasts_S1_S1x1

/-- The row minima of a matrix, summed. -/
def rowMinSum (P : FVec F S2048x2048 .f32) : FVec F S1x1 .f32 :=
  shapeCast S1x1
    (multiReduction .add [0] S1
      (shapeCast S2048x1 (multiReduction .minimumf [1] S2048 P 0x7F800000#32 reduces_S2048x2048_S2048_2 (.inl rfl) rfl) shapeCasts_S2048_S2048x1)
      0x00000000#32 reduces_S2048x1_S1 (.inl rfl) rfl)
    shapeCasts_S1_S1x1

/-- One frame's update of the accumulator: `x` is the block the body loads from its second operand, `y` from its first. -/
def step (it : Fin 16) (x y : FVec F S3x16x2048 .f32) (acc : FVec F S1x1 .f32) : FVec F S1x1 .f32 :=
  addf (addf acc (colMinSum (dist (frame it x) (frame it y)))) (rowMinSum (dist (frame it x) (frame it y)))

end Cert.KernelIdeal.Iter

end
-- ==== Proof.LibReadCov.lean ====
/-
  A load of a whole buffer after several stores of the whole buffer reads the LAST store's payload.

  The symbolic run of a kernel body records what a buffer holds as a list of pieces, last store first, and a load
  of it as `View.readCov` of that list. When the head piece is a store through the whole-shape rectangle at zero
  offsets, it covers every index, so the canon of the list is its payload whatever the earlier stores were, and a
  load through the same rectangle reads exactly that payload. (The library states this for a one-store list; a
  scratch buffer rewritten many times in one run needs it for any tail.)
-/
import Idealize.ShloMosaic.Lib.Pipeline.Value

noncomputable section

namespace Idealize.ShloMosaic.View

variable {Val : EltTy → Type} {S : Shape} {e : EltTy}

/-- A load through the whole-shape rectangle of what a list of stores left, the LAST of them (the head) through the
    whole-shape rectangle: the head's payload, whatever the tail. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, mem_set_unit_zero rfl inb y⟩),
    canon_cons_unit_zero rfl, ld_unit_zero rfl]

end Idealize.ShloMosaic.View

end
-- ==== Proof.Pieces.lean ====
/-
  What one run of the kernel body leaves in the (1,1) output block, in each of its three control cases.

  At every grid point b the body forms, from the point's two [1, 3, 16, 2048] input blocks, the sum over the 16
  frames of the frame's two nearest-distance sums, by sixteen copies of one frame's work (`Iter.step`) chained
  through a (1,1) accumulator that starts at zero: `blockAcc x y`. The 2048 × 2048 scratch is rewritten whole
  before each read of it, so a read of it is always the matrix stored last, and nothing of the scratch is carried
  from one grid point to the next. Then
    · at the first point the output block is first set to zero, and the body leaves  0 + blockAcc;
    · at a middle point it leaves  out + blockAcc  over what the point before left;
    · at the last point it leaves  (out + blockAcc) · 2⁻⁶.
  Each is read off the pieces the symbolic run found: the last whole-block store wins, and a load of a whole
  buffer reads the payload stored last; what remains is the printed arithmetic, which is `step` frame by frame by
  unfolding alone. All of this holds at any float instance.
-/
import proofs.«172351_j84782654423732_1_alg».proof.Proof.Gen.KernelIdeal.Frame
import proofs.«172351_j84782654423732_1_alg».proof.Proof.KernelIter
import proofs.«172351_j84782654423732_1_alg».proof.Proof.LibReadCov
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Iter

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The (1,1) zero block: what the first point resets the output to, and where each point's accumulator starts. -/
abbrev zero11 : FVec F S1x1 .f32 := broadcast S1x1 (Scalar.ofBits .f32 0x00000000#32)

/-- A [1, 3, 16, 2048] input block with its unit axis dropped. -/
abbrev drop1 (b : Vec F S1x3x16x2048 .f32) : FVec F S3x16x2048 .f32 :=
  shapeCast S3x16x2048 b shapeCasts_S1x3x16x2048_S3x16x2048

/-- The (1,1) identity cast the body applies to the output block it loads. -/
abbrev same11 (o : Vec F S1x1 .f32) : FVec F S1x1 .f32 := shapeCast S1x1 o shapeCasts_S1x1_S1x1

/-- The word of 2⁻⁶ as a (1,1) block: the last point's scale. -/
abbrev scale11 : FVec F S1x1 .f32 := broadcast S1x1 (Scalar.ofBits .f32 0x3C800000#32)

/-- One grid point's accumulator after its 16 frames, from zero: frame 0 first, frame 15 last. -/
def blockAcc (x y : FVec F S3x16x2048 .f32) : FVec F S1x1 .f32 :=
  let z : FVec F S1x1 .f32 := zero11
  step 15 x y (step 14 x y (step 13 x y (step 12 x y (step 11 x y (step 10 x y (step 9 x y (step 8 x y (step 7 x y (step 6 x y (step 5 x y (step 4 x y (step 3 x y (step 2 x y (step 1 x y (step 0 x y z)))))))))))))))

/-- A middle point (neither branch taken): `out + blockAcc`, `x` the block of the second operand, `y` of the first. -/
theorem out_B (c : Dev nD) (i : grid0.Coords) (arg1 : Memref sig .tc .vmem S1x3x16x2048 .f32) (harg1 : arg1.IsWhole) (arg2 : Memref sig .tc .vmem S1x3x16x2048 .f32) (harg2 : arg2.IsWhole) (arg3 : Memref sig .tc .vmem S1x1 .f32) (harg3 : arg3.IsWhole) (arg4 : Memref sig .tc .vmem S2048x2048 .f32) (harg4 : arg4.IsWhole) (hc0 : ¬cond0_0 i) (hc1 : ¬cond0_1 i)
    (x0 : Vec F S1x3x16x2048 .f32) (x1 : Vec F S1x3x16x2048 .f32) (xo2 : Vec F S1x1 .f32) :
    out0_B_2 c i arg1 harg1 arg2 harg2 arg3 harg3 arg4 harg4 hc0 hc1 x0 x1 xo2 = addf (same11 xo2) (blockAcc (drop1 x1) (drop1 x0)) := by
  unfold out0_B_2
  rw [View.read_writes_eq_canon _ _ _ (cover0_B_2 c i arg1 harg1 arg2 harg2 arg3 harg3 arg4 harg4 hc0 hc1 x0 x1 xo2)]
  unfold kernelRun0_B
  dsimp only
  sl_unfold_words
  rw [View.canon_unit_zero hz2]
  simp only [View.readAt_eq_ld, harg1.read_unread, harg2.read_unread, harg3.read_unread,
    View.ld_unit_zero (S := S1x3x16x2048) hz4, View.ld_unit_zero (S := S1x1) hz2,
    View.readCov_cons_unit_zero (S := S2048x2048) _ hz2, View.readCov_unit_zero (S := S2048x2048) _ hz2,
    View.readCov_cons_unit_zero (S := S1x1) _ hz2, View.readCov_unit_zero (S := S1x1) _ hz2]
  rfl

/-- The first point (the reset branch taken): the block is zeroed, read back, and left at `0 + blockAcc`. -/
theorem out_A (c : Dev nD) (i : grid0.Coords) (arg1 : Memref sig .tc .vmem S1x3x16x2048 .f32) (harg1 : arg1.IsWhole) (arg2 : Memref sig .tc .vmem S1x3x16x2048 .f32) (harg2 : arg2.IsWhole) (arg3 : Memref sig .tc .vmem S1x1 .f32) (harg3 : arg3.IsWhole) (arg4 : Memref sig .tc .vmem S2048x2048 .f32) (harg4 : arg4.IsWhole) (hc0 : cond0_0 i) (hc1 : ¬cond0_1 i)
    (x0 : Vec F S1x3x16x2048 .f32) (x1 : Vec F S1x3x16x2048 .f32) :
    out0_A_2 c i arg1 harg1 arg2 harg2 arg3 harg3 arg4 harg4 hc0 hc1 x0 x1 = addf (same11 zero11) (blockAcc (drop1 x1) (drop1 x0)) := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  rw [View.canon_cons_unit_zero (S := S1x1) hz2]
  simp only [View.readAt_eq_ld, harg1.read_unread, harg2.read_unread, harg3.read_unread,
    View.ld_unit_zero (S := S1x3x16x2048) hz4, View.ld_unit_zero (S := S1x1) hz2,
    View.readCov_cons_unit_zero (S := S2048x2048) _ hz2, View.readCov_unit_zero (S := S2048x2048) _ hz2,
    View.readCov_cons_unit_zero (S := S1x1) _ hz2, View.readCov_unit_zero (S := S1x1) _ hz2]
  rfl

/-- The last point (the scaling branch taken): `out + blockAcc` is stored, read back, and left times 2⁻⁶. -/
theorem out_C (c : Dev nD) (i : grid0.Coords) (arg1 : Memref sig .tc .vmem S1x3x16x2048 .f32) (harg1 : arg1.IsWhole) (arg2 : Memref sig .tc .vmem S1x3x16x2048 .f32) (harg2 : arg2.IsWhole) (arg3 : Memref sig .tc .vmem S1x1 .f32) (harg3 : arg3.IsWhole) (arg4 : Memref sig .tc .vmem S2048x2048 .f32) (harg4 : arg4.IsWhole) (hc0 : ¬cond0_0 i) (hc1 : cond0_1 i)
    (x0 : Vec F S1x3x16x2048 .f32) (x1 : Vec F S1x3x16x2048 .f32) (xo2 : Vec F S1x1 .f32) :
    out0_C_2 c i arg1 harg1 arg2 harg2 arg3 harg3 arg4 harg4 hc0 hc1 x0 x1 xo2
      = mulf (same11 (addf (same11 xo2) (blockAcc (drop1 x1) (drop1 x0)))) scale11 := by
  unfold out0_C_2
  rw [View.read_writes_eq_canon _ _ _ (cover0_C_2 c i arg1 harg1 arg2 harg2 arg3 harg3 arg4 harg4 hc0 hc1 x0 x1 xo2)]
  unfold kernelRun0_C
  dsimp only
  sl_unfold_words
  rw [View.canon_cons_unit_zero (S := S1x1) hz2]
  simp only [View.readAt_eq_ld, harg1.read_unread, harg2.read_unread, harg3.read_unread,
    View.ld_unit_zero (S := S1x3x16x2048) hz4, View.ld_unit_zero (S := S1x1) hz2,
    View.readCov_cons_unit_zero (S := S2048x2048) _ hz2, View.readCov_unit_zero (S := S2048x2048) _ hz2,
    View.readCov_cons_unit_zero (S := S1x1) _ hz2, View.readCov_unit_zero (S := S1x1) _ hz2]
  rfl

end Cert.KernelIdeal.Pieces

end
-- ==== Proof.KernelRun.lean ====
/-
  The kernel's run, read as a value: what the result holds when @main ends, at any float instance.

  The (1,1) output block is carried over the four grid points and written back once, after the last. With
  `pointAcc t` the accumulator the body forms from point t's two input blocks, the block holds
      0 + pointAcc 0,   then  + pointAcc 1,   then  + pointAcc 2,   and last  (… + pointAcc 3) · 2⁻⁶,
  each through the identity cast the body applies to the block it loads. The block is the whole (1,1) result array of
  the call, so after the last point's write-back the array holds that value, and @main's one host operation after the
  call reshapes it to the rank-0 result.
-/
import proofs.«172351_j84782654423732_1_alg».proof.Proof.Pieces
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Pieces

variable {F : FTy → Type} [FloatOps F]
variable (m : (ℓ : Loc nD τ sig) → Buf (Elt F) ℓ) (ρ : Dev nD → PrngReg)

/-- Point `t`'s block of the first argument (preds) and of the second (gts), at their literal type. -/
abbrev predsBlk (c : Dev nD) (t : Fin cfg0.N) : Vec F S1x3x16x2048 .f32 := iblk m c 0 t
abbrev gtsBlk (c : Dev nD) (t : Fin cfg0.N) : Vec F S1x3x16x2048 .f32 := iblk m c 1 t

/-- The accumulator the body forms at point `t`: the 16 frames' sums, x from gts, y from preds. -/
def pointAcc (c : Dev nD) (t : Fin cfg0.N) : FVec F S1x1 .f32 :=
  blockAcc (drop1 (gtsBlk m c t)) (drop1 (predsBlk m c t))

/-- After the first point: zero plus its accumulator. -/
theorem at_first (c : Dev nD) (h : 0 < cfg0.N) :
    outsAt0 m c 0 h = addf (same11 zero11) (pointAcc m c ⟨0, h⟩) :=
  (outsAt0_A m c ⟨0, h⟩ rfl (show ¬0 % 4 = 3 by decide)).trans
    (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩))

/-- After a middle point: what the point before left plus its accumulator. -/
theorem at_middle (c : Dev nD) (n : ℕ) (h : n + 1 < cfg0.N) (h0 : ¬(n + 1) % 4 = 0) (h1 : ¬(n + 1) % 4 = 3) :
    outsAt0 m c (n + 1) h
      = addf (same11 (outsAt0 m c n (Nat.lt_of_succ_lt h))) (pointAcc m c ⟨n + 1, h⟩) :=
  (outsAt0_B m c ⟨n + 1, h⟩ h0 h1).trans
    (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)
      (outsAt0 m c n (Nat.lt_of_succ_lt h)))

/-- After the last point: the same sum, scaled by 2⁻⁶. -/
theorem at_last (c : Dev nD) (n : ℕ) (h : n + 1 < cfg0.N) (h0 : ¬(n + 1) % 4 = 0) (h1 : (n + 1) % 4 = 3) :
    outsAt0 m c (n + 1) h
      = mulf (same11 (addf (same11 (outsAt0 m c n (Nat.lt_of_succ_lt h))) (pointAcc m c ⟨n + 1, h⟩))) scale11 :=
  (outsAt0_C m c ⟨n + 1, h⟩ h0 h1).trans
    (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)
      (outsAt0 m c n (Nat.lt_of_succ_lt h)))

/-- What the output block holds after the last of the four points. -/
def finalOut (c : Dev nD) : FVec F S1x1 .f32 :=
  mulf (same11 (addf (same11 (addf (same11 (addf (same11 (addf (same11 zero11) (pointAcc m c t0_0))) (pointAcc m c t0_1)))
    (pointAcc m c t0_2))) (pointAcc m c t0_3))) scale11

theorem outsAt_last (c : Dev nD) : outsAt0 m c t0_3.val t0_3.isLt = finalOut m c := by
  have h : (3 : ℕ) < cfg0.N := t0_3.isLt
  show outsAt0 m c 3 h = _
  rw [at_last m c 2 h (by decide) (by decide), at_middle m c 1 _ (by decide) (by decide),
    at_middle m c 0 _ (by decide) (by decide), at_first m c]
  rfl

/-- The one write-back, after the last point, writes the final block: block (0, 0) of the (1,1) array is the array. -/
theorem flushed_eq (c : Dev nD) (t : Fin cfg0.N) (hf : (cfg0.win 2).flush t = true) :
    (dats m 0 c).flushed 2 t = ((cfg0.win 2).blk t).view.read (Elt F) (finalOut m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2, outsAt_last]
  have hz' : (fun a => win0_2.index t0_3 a * main_v0.ty.shape.size a) = fun _ => 0 := funext fun a => by fin_cases a <;> decide
  exact (Memref.read_access_unit_zero (Elt F) main_v0 hz' (fun a => by rw [congrFun hz' a]; simp) (finalOut m c)).symm

/-- So the call's result array ends holding the final block. -/
theorem final_o (c : Dev nD) : (dats m 0 c).arrAt 2 cfg0.N = finalOut m c :=
  (dats m 0 c).arrAt_eq_of_cover 2 (finalOut m c) (flushed_eq m c) fun i =>
    ⟨t0_3, (flush0_2 t0_3).mpr rfl, by
      show i ∈ ((View.whole main_v0).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega⟩

/-- The rank-0 result: the final block reshaped. -/
def result (c : Dev nD) : Buf (Elt F) ((c : Thread nD τ).loc main_v1) :=
  shapeCast S_ (finalOut m c) shapeCasts_S1x1_S_

/-- The host operation after the call reshapes the call's result array. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = finalOut m c :=
    (Pipeline.withArrays_arr spec0 launch0.win.arr_inj c (V0 m c) (fun w => (dats m 0 c).arrAt w (cfgs 0).N) 2).trans (final_o m c)
  rw [e]
  rfl

/-- The run, read: @main's result at the reshaped final block, the two arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.Spec.lean ====
/-
  The chamfer loss both programs compute, as one function of the two argument arrays, on the extended reals.

  The arrays are [B, C, T, N] = [4, 3, 16, 2048]: for a batch entry b and a frame t, the point sets
  x = gts[b, :, t, :] and y = preds[b, :, t, :] are 2048 points each in dimension 3. Their matrix of squared
  distances is written in the expanded form  P[n, m] = |x_n|² + |y_m|² − 2·⟨x_n, y_m⟩  (no cancellation is
  used anywhere, so the same term is read on both sides and finiteness is never needed), the slice's loss is
      Σ_m min_n P[n, m]  +  Σ_n min_m P[n, m],
  and the result is the sum of the 64 slices' losses divided by 64. The minima are folds of `min` from the
  word of +∞ both programs start them at; the words of 2 and +∞ are kept as words, the same on both sides.
  The only arithmetic fact is the last one: multiplying by the word of 2⁻⁶ is dividing by the word of 64.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The argument arrays' contents at the ideal values. -/
abbrev Arr : Type := (⟨4, ![4, 3, 16, 2048]⟩ : Shape).Idx → EReal

/-- The word of `2.0`. -/
abbrev w2 : EReal := Ideal.ofBits .f32 0x40000000#32
/-- The word of `+∞`, from which both programs fold their minima. -/
abbrev wInf : EReal := Ideal.ofBits .f32 0x7F800000#32

/-- `P[n, m] = |x_n|² + |y_m|² − 2·⟨x_n, y_m⟩` for two sets of 2048 points in dimension 3, given by coordinates. -/
def sqdist (x y : Fin 3 → Fin 2048 → EReal) (n m : Fin 2048) : EReal :=
  ((∑ c : Fin 3, x c n * x c n) + (∑ c : Fin 3, y c m * y c m)) - w2 * (∑ c : Fin 3, x c n * y c m)

/-- For each point of `y` the least squared distance to a point of `x`, summed over `y`. -/
def nearestToY (x y : Fin 3 → Fin 2048 → EReal) : EReal :=
  ∑ m : Fin 2048, (Finset.univ : Finset (Fin 2048)).fold min wInf (fun n => sqdist x y n m)

/-- For each point of `x` the least squared distance to a point of `y`, summed over `x`. -/
def nearestToX (x y : Fin 3 → Fin 2048 → EReal) : EReal :=
  ∑ n : Fin 2048, (Finset.univ : Finset (Fin 2048)).fold min wInf (fun m => sqdist x y n m)

/-- One slice's chamfer loss. -/
def chamfer (x y : Fin 3 → Fin 2048 → EReal) : EReal := nearestToY x y + nearestToX x y

/-- The point set of batch entry `b` and frame `t` of an array, by coordinates: channel `c`, point `n`. -/
def pts (a : Arr) (b : Fin 4) (t : Fin 16) : Fin 3 → Fin 2048 → EReal := fun c n => a (ix4 b c t n)

/-- The sum of the 64 slices' losses: `x` from `gts`, `y` from `preds`. -/
def lossSum (preds gts : Arr) : EReal :=
  ∑ b : Fin 4, ∑ t : Fin 16, chamfer (pts gts b t) (pts preds b t)

/-- The result: the mean over the 64 slices, as the quotient by the word of `64.0`. -/
def total (preds gts : Arr) : EReal := Ideal.div (lossSum preds gts) (Ideal.ofBits .f32 0x42800000#32)

/-- The word `0x42800000` denotes 64, -/
theorem ofBits_64 : Ideal.ofBits .f32 0x42800000#32 = ((64 : ℝ) : EReal) := by
  simp [Ideal.ofBits, Ideal.ieee, -EReal.coe_mul]; norm_num

/-- and `0x3C800000` denotes 2⁻⁶ = 1/64 exactly. -/
theorem ofBits_inv64 : Ideal.ofBits .f32 0x3C800000#32 = ((1 / 64 : ℝ) : EReal) := by
  simp [Ideal.ofBits, Ideal.ieee, -EReal.coe_mul]; norm_num

/-- So scaling by the word of 1/64 is the quotient by the word of 64, on every extended real. -/
theorem scale_eq_div (s : EReal) :
    s * Ideal.ofBits .f32 0x3C800000#32 = Ideal.div s (Ideal.ofBits .f32 0x42800000#32) := by
  rw [ofBits_64, ofBits_inv64, Ideal.div_coe (by norm_num : (64 : ℝ) ≠ 0)]

end Cert.Chamfer

end
-- ==== Proof.KernelIterValue.lean ====
/-
  One frame's work of the kernel body, read at the extended reals, index by index.

  On the extended reals every float operation is its exact namesake, a change of format is the identity, and the
  matrix product into a zero accumulator is the plain sum of products. So: frame `it` of a block at (c, n) is the
  block at (c, it, n); the squared norms are the three-term sums of squares; the product of the two transposed frames at
  (n, m) is the inner product of point n with point m; the distance matrix at (n, m) is
  |x_n|² + |y_m|² − 2·⟨x_n, y_m⟩ in exactly that order of operations, which is the specification's `sqdist`; a minimum
  reduction over one axis is the fold of `min` from the word of +∞ over that axis's coordinates, and a sum reduction the
  sum over them. Rows index the points of x and columns those of y, so the column minima summed are the specification's
  `nearestToY` and the row minima summed its `nearestToX`; one frame adds both to the accumulator. No arithmetic law is
  used beyond reading each operation, and nothing is assumed of the inputs.
-/
import proofs.«172351_j84782654423732_1_alg».proof.Proof.KernelIter
import proofs.«172351_j84782654423732_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Iter

open Idealize.ShloMosaic Idealize.ShloMosaic.ValueIdx Cert.KernelIdeal

/-! ## Two layout readings: a column broadcast along the rows, and a vector cast to a column -/

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## A frame, and its points' squared norms -/

/-- Frame `it` of a block at channel `c`, point `n`, is the block at `(c, it, n)`. -/
theorem frame_apply (it : Fin 16) (v : FVec Ideal S3x16x2048 .f32) (c : Fin 3) (n : Fin 2048) :
    frame (F := Ideal) it v (ix2 c n) = v (ix3 c it n) := by
  unfold frame
  refine (shapeCast_apply _ _ (ix2 c n) (ix3 c (0 : Fin 1) n) ?_).trans ?_
  · rw [Shape.rowMajor_val_three, Shape.rowMajor_val_two]
    show (c.val * 1 + 0) * 2048 + n.val = c.val * 2048 + n.val
    rw [Nat.mul_one, Nat.add_zero]
  · exact slice3_axis1_apply it.val v _ c (0 : Fin 1) n it rfl

/-- The squared norm of point `n`: the sum over the three channels of the coordinate's square. -/
theorem sqnorm_apply (p : FVec Ideal S3x2048 .f32) (u : Fin 1) (n : Fin 2048) :
    sqnorm (F := Ideal) p (ix2 u n) = ∑ c : Fin 3, p (ix2 c n) * p (ix2 c n) := by
  unfold sqnorm
  refine (shapeCast_a_1a_apply _ _ u n).trans ?_
  refine (Ideal.multiReduction_add_single _ _ _ _ _ _).trans ?_
  refine Finset.sum_congr rfl fun c _ => ?_
  have e : Shape.Reduces.lift (s := S3x2048) (t := S2048) (a := 0) Facts₀.reduces_S3x2048_S2048 (ix1 n) c = ix2 c n :=
    funext fun ax => Fin.ext (by match ax with | ⟨0, _⟩ => rfl | ⟨1, _⟩ => rfl)
  exact congrArg (fun i => p i * p i) e

/-! ## The inner products -/

/-- The contraction of the body's matrix product runs over the second axis of both operands: the left operand is read at
    (row of the output, contraction coordinate), -/
theorem lhs_dot_0 (j : S2048x2048.Idx) (q : dot_S2048x3_S2048x3_S2048x2048_1_1_0_0_n_n.contr.Idx) :
    (dot_S2048x3_S2048x3_S2048x2048_1_1_0_0_n_n.lhsIdx j q 0).val = (j 0).val := by
  unfold DotDims.lhsIdx
  rw [dif_neg (show ¬(0 : Fin S2048x3.rank) ∈ dot_S2048x3_S2048x3_S2048x2048_1_1_0_0_n_n.lhsBatch by decide),
    dif_pos (show (0 : Fin S2048x3.rank) ∈ dot_S2048x3_S2048x3_S2048x2048_1_1_0_0_n_n.lhsNonContracting by decide)]
  rfl
theorem lhs_dot_1 (j : S2048x2048.Idx) (q : dot_S2048x3_S2048x3_S2048x2048_1_1_0_0_n_n.contr.Idx) :
    (dot_S2048x3_S2048x3_S2048x2048_1_1_0_0_n_n.lhsIdx j q 1).val = (q ⟨0, by decide⟩).val :=
  dot_S2048x3_S2048x3_S2048x2048_1_1_0_0_n_n.lhsIdx_val_of_single rfl j q
/-- and the right operand at (column of the output, contraction coordinate). -/
theorem rhs_dot_0 (j : S2048x2048.Idx) (q : dot_S2048x3_S2048x3_S2048x2048_1_1_0_0_n_n.contr.Idx) :
    (dot_S2048x3_S2048x3_S2048x2048_1_1_0_0_n_n.rhsIdx j q 0).val = (j 1).val := by
  unfold DotDims.rhsIdx
  rw [dif_neg (show ¬(0 : Fin S2048x3.rank) ∈ dot_S2048x3_S2048x3_S2048x2048_1_1_0_0_n_n.rhsBatch by decide),
    dif_pos (show (0 : Fin S2048x3.rank) ∈ dot_S2048x3_S2048x3_S2048x2048_1_1_0_0_n_n.rhsNonContracting by decide)]
  rfl
theorem rhs_dot_1 (j : S2048x2048.Idx) (q : dot_S2048x3_S2048x3_S2048x2048_1_1_0_0_n_n.contr.Idx) :
    (dot_S2048x3_S2048x3_S2048x2048_1_1_0_0_n_n.rhsIdx j q 1).val = (q ⟨0, by decide⟩).val :=
  dot_S2048x3_S2048x3_S2048x2048_1_1_0_0_n_n.rhsIdx_val_of_single rfl j q

/-- The product of the two transposed frames into a zero accumulator, at `(n, m)`: the inner product of point `n` of
    the first with point `m` of the second (the change of format is the identity on the extended reals). -/
theorem cross_apply (px py : FVec Ideal S3x2048 .f32) (n m : Fin 2048) :
    cross (F := Ideal) px py (ix2 n m) = ∑ c : Fin 3, px (ix2 c n) * py (ix2 c m) := by
  unfold cross
  rw [shapeCast_self]
  refine (Ideal.matmul_constant_zero_apply _ none _ _ _).trans ?_
  rw [← Equiv.sum_comp (contrEquiv1 dot_S2048x3_S2048x3_S2048x2048_1_1_0_0_n_n 3 rfl rfl).symm]
  refine Finset.sum_congr rfl fun c _ => ?_
  have hc := contrEquiv1_symm_val dot_S2048x3_S2048x3_S2048x2048_1_1_0_0_n_n 3 rfl rfl c
  have el : dot_S2048x3_S2048x3_S2048x2048_1_1_0_0_n_n.lhsIdx (ix2 n m)
      ((contrEquiv1 dot_S2048x3_S2048x3_S2048x2048_1_1_0_0_n_n 3 rfl rfl).symm c) = ix2 n c :=
    funext fun a => Fin.ext (by
      match a with
      | ⟨0, _⟩ => exact lhs_dot_0 _ _
      | ⟨1, _⟩ => exact (lhs_dot_1 _ _).trans hc)
  have er : dot_S2048x3_S2048x3_S2048x2048_1_1_0_0_n_n.rhsIdx (ix2 n m)
      ((contrEquiv1 dot_S2048x3_S2048x3_S2048x2048_1_1_0_0_n_n 3 rfl rfl).symm c) = ix2 m c :=
    funext fun a => Fin.ext (by
      match a with
      | ⟨0, _⟩ => exact rhs_dot_0 _ _
      | ⟨1, _⟩ => exact (rhs_dot_1 _ _).trans hc)
  rw [el, er, transpose_ix2_apply, transpose_ix2_apply]
  rfl

/-! ## The matrix of squared distances -/

/-- At `(n, m)`: the squared norm of point `n` of the first frame plus that of point `m` of the second, minus the word of
    two times their inner product; the expanded square, term for term. -/
theorem dist_apply (px py : FVec Ideal S3x2048 .f32) (n m : Fin 2048) :
    dist (F := Ideal) px py (ix2 n m)
      = ((∑ c : Fin 3, px (ix2 c n) * px (ix2 c n)) + (∑ c : Fin 3, py (ix2 c m) * py (ix2 c m)))
          - Ideal.ofBits .f32 0x40000000#32 * ∑ c : Fin 3, px (ix2 c n) * py (ix2 c m) := by
  unfold dist
  rw [shapeCast_self]
  show (broadcastTo S2048x2048 _ _ (ix2 n m) + broadcastTo S2048x2048 _ _ (ix2 n m))
      - Ideal.ofBits .f32 0x40000000#32 * cross (F := Ideal) px py (ix2 n m) = _
  rw [broadcastTo_a1_ab_apply, broadcastTo_1b_ab_apply, transpose_ix2_apply, sqnorm_apply, sqnorm_apply, cross_apply]

/-! ## The minima and their sums -/

/-- A float minimum reduction over one axis, on the extended reals: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The column minima, summed: for each column `m` the least entry over the rows `n`, from the word of `+∞`, then the
    sum over the columns. -/
theorem colMinSum_apply (P : FVec Ideal S2048x2048 .f32) (u v : Fin 1) :
    colMinSum (F := Ideal) P (ix2 u v)
      = ∑ m : Fin 2048, (Finset.univ : Finset (Fin 2048)).fold min (Ideal.ofBits .f32 0x7F800000#32) (fun n => P (ix2 n m)) := by
  unfold colMinSum
  refine (shapeCast_a_1a_apply _ _ u v).trans ?_
  refine (Ideal.multiReduction_add_single _ _ _ _ _ _).trans ?_
  refine Finset.sum_congr rfl fun m _ => ?_
  have e : Shape.Reduces.lift (s := S1x2048) (t := S1) (a := 1) Facts₀.reduces_S1x2048_S1 (ix1 v) m = ix2 v m :=
    funext fun ax => Fin.ext (by match ax with | ⟨0, _⟩ => rfl | ⟨1, _⟩ => rfl)
  refine (congrArg _ e).trans ?_
  refine (shapeCast_a_1a_apply _ _ v m).trans ?_
  refine (multiReduction_minimumf_single _ _ _ _ _ _).trans ?_
  refine Finset.fold_congr fun n _ => ?_
  exact congrArg P (funext fun ax => Fin.ext (by match ax with | ⟨0, _⟩ => rfl | ⟨1, _⟩ => rfl))

/-- The row minima, summed: for each row `n` the least entry over the columns `m`, then the sum over the rows. -/
theorem rowMinSum_apply (P : FVec Ideal S2048x2048 .f32) (u v : Fin 1) :
    rowMinSum (F := Ideal) P (ix2 u v)
      = ∑ n : Fin 2048, (Finset.univ : Finset (Fin 2048)).fold min (Ideal.ofBits .f32 0x7F800000#32) (fun m => P (ix2 n m)) := by
  unfold rowMinSum
  refine (shapeCast_a_1a_apply _ _ u v).trans ?_
  refine (Ideal.multiReduction_add_single _ _ _ _ _ _).trans ?_
  refine Finset.sum_congr rfl fun n _ => ?_
  have e : Shape.Reduces.lift (s := S2048x1) (t := S1) (a := 0) Facts₀.reduces_S2048x1_S1 (ix1 v) n = ix2 n v :=
    funext fun ax => Fin.ext (by match ax with | ⟨0, _⟩ => rfl | ⟨1, _⟩ => rfl)
  refine (congrArg _ e).trans ?_
  refine (shapeCast_a_a1_apply _ _ n v).trans ?_
  refine (multiReduction_minimumf_single _ _ _ _ _ _).trans ?_
  refine Finset.fold_congr fun m _ => ?_
  exact congrArg P (funext fun ax => Fin.ext (by match ax with | ⟨0, _⟩ => rfl | ⟨1, _⟩ => rfl))

/-! ## One frame's update -/

/-- The distance matrix of frame `it` of the two blocks is the specification's, on the frames' point sets. -/
theorem dist_frame_apply (it : Fin 16) (x y : FVec Ideal S3x16x2048 .f32) (n m : Fin 2048) :
    dist (F := Ideal) (frame it x) (frame it y) (ix2 n m)
      = Cert.Chamfer.sqdist (fun c n => x (ix3 c it n)) (fun c m => y (ix3 c it m)) n m := by
  rw [dist_apply]
  unfold Cert.Chamfer.sqdist
  simp only [frame_apply]

/-- One frame's work adds to the accumulator the two one-sided sums of least squared distances between the frame's point
    sets: first towards the points of `y`, then towards the points of `x`. -/
theorem step_apply (it : Fin 16) (x y : FVec Ideal S3x16x2048 .f32) (acc : FVec Ideal S1x1 .f32) (j : S1x1.Idx) :
    step (F := Ideal) it x y acc j
      = (acc j + Cert.Chamfer.nearestToY (fun c n => x (ix3 c it n)) (fun c m => y (ix3 c it m)))
          + Cert.Chamfer.nearestToX (fun c n => x (ix3 c it n)) (fun c m => y (ix3 c it m)) := by
  have hj : j = ix2 (n0 := 1) (n1 := 1) (j 0) (j 1) := eq_ix2 (n0 := 1) (n1 := 1) j
  have hc := (congrArg (colMinSum (F := Ideal) (dist (frame it x) (frame it y))) hj).trans
    (colMinSum_apply _ (j 0) (j 1))
  have hr := (congrArg (rowMinSum (F := Ideal) (dist (frame it x) (frame it y))) hj).trans
    (rowMinSum_apply _ (j 0) (j 1))
  unfold step
  show (acc j + colMinSum (F := Ideal) (dist (frame it x) (frame it y)) j)
      + rowMinSum (F := Ideal) (dist (frame it x) (frame it y)) j = _
  rw [hc, hr]
  unfold Cert.Chamfer.nearestToY Cert.Chamfer.nearestToX
  simp only [dist_frame_apply]

end Cert.KernelIdeal.Iter

end
-- ==== Proof.KernelValue.lean ====
/-
  The kernel's result at the extended reals is the specification's chamfer loss.

  Read from the inside out. One frame's work adds the frame's two nearest-distance sums to the accumulator, so the
  accumulator a grid point forms from its two blocks, sixteen such steps from zero, is the sum over the 16 frames of the
  frame's chamfer loss: regrouping a left-nested chain of additions into a sum uses only that addition on the extended
  reals is associative with 0 neutral. Block b of an argument array, read at (0, c, t, n), is the array at (b, c, t, n),
  so point b's frames are the specification's slices (b, t). The output block adds the four points' accumulators from
  zero and the last point multiplies by the word of 2⁻⁶, which is the quotient by the word of 64: the specification's
  total. Nothing is assumed of the inputs.
-/
import proofs.«172351_j84782654423732_1_alg».proof.Proof.KernelRun
import proofs.«172351_j84782654423732_1_alg».proof.Proof.KernelIterValue
import proofs.«172351_j84782654423732_1_alg».proof.Proof.Spec
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Total

open Cert.KernelIdeal Cert.KernelIdeal.Gen Cert.KernelIdeal.Pieces Cert.KernelIdeal.Iter Cert.KernelIdeal.RunValue Cert.Chamfer

/-- Sixteen steps "add f, then add g" from `z` are `z` plus the sum of the sixteen `f + g`: associativity only. -/
theorem chain16 (z : EReal) (f g : Fin 16 → EReal) :
    ((((((((((((((((((((((((((((((((z + f 0) + g 0) + f 1) + g 1) + f 2) + g 2) + f 3) + g 3) + f 4) + g 4) + f 5) + g 5) + f 6) + g 6) + f 7) + g 7) + f 8) + g 8) + f 9) + g 9) + f 10) + g 10) + f 11) + g 11) + f 12) + g 12) + f 13) + g 13) + f 14) + g 14) + f 15) + g 15) = z + ∑ it : Fin 16, (f it + g it) := by
  rw [Finset.sum_fin_eq_sum_range]
  simp only [Finset.sum_range_succ, Finset.sum_range_zero]
  simp only [show ((0:ℕ) < 16) = True from by decide, Nat.reduceLT, dite_true, dif_pos]
  simp only [zero_add, add_assoc]
  rfl

/-- A grid point's accumulator: the sum over the 16 frames of the frame's chamfer loss, x and y by coordinates. -/
theorem blockAcc_apply (x y : FVec Ideal S3x16x2048 .f32) (j : S1x1.Idx) :
    blockAcc (F := Ideal) x y j
      = ∑ it : Fin 16, chamfer (fun c n => x (ix3 c it n)) (fun c m => y (ix3 c it m)) := by
  unfold blockAcc
  simp only [step_apply]
  refine (chain16 _ (fun it => nearestToY (fun c n => x (ix3 c it n)) (fun c m => y (ix3 c it m)))
    (fun it => nearestToX (fun c n => x (ix3 c it n)) (fun c m => y (ix3 c it m)))).trans ?_
  show Ideal.ofBits .f32 0x00000000#32 + _ = _
  rw [Ideal.ofBits_zero_f32, zero_add]
  rfl

variable (m : (ℓ : Loc nD τ sig) → Buf (Elt Ideal) ℓ)

/-- Both input windows step their batch axis with the grid and stay at block 0 on the other axes. -/
theorem idx_facts : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0))

/-- The batch entry a grid point works on. -/
def batchOf (t : Fin cfg0.N) : Fin 4 := ⟨t.val, lt_of_lt_of_eq t.isLt (show cfg0.N = 4 from N_0)⟩

/-- Point `t`'s block of the first argument, its unit axis dropped, at (c, frame, n): the array at (batch, c, frame, n). -/
theorem predsBlk_apply (c : Dev nD) (t : Fin cfg0.N) (ch : Fin 3) (it : Fin 16) (n : Fin 2048) :
    drop1 (predsBlk m c t) (ix3 ch it n) = m ((c : Thread nD τ).loc main_arg0) (ix4 (batchOf t) ch it n) := by
  have hi := (idx_facts t).1
  refine (shapeCast_apply _ _ (ix3 ch it n) (ix4 (0 : Fin 1) ch it n) ?_).trans ?_
  · rw [Shape.rowMajor_val_four, Shape.rowMajor_val_three]
    show (((0 * 3 + ch.val) * 16 + it.val) * 2048 + n.val) = (ch.val * 16 + it.val) * 2048 + n.val
    omega
  · show iblk m c 0 t (ix4 (0 : Fin 1) ch it n) = _
    unfold iblk
    rw [View.read_apply]
    show m ((c : Thread nD τ).loc main_arg0) _ = m ((c : Thread nD τ).loc main_arg0) _
    refine congrArg (m ((c : Thread nD τ).loc main_arg0)) (funext fun a => Fin.ext ?_)
    match a with
    | ⟨0, _⟩ => show win0_0.index t 0 * 1 + 1 * 0 = t.val; rw [hi.1]; omega
    | ⟨1, _⟩ => show win0_0.index t 1 * 3 + 1 * ch.val = ch.val; rw [hi.2.1]; omega
    | ⟨2, _⟩ => show win0_0.index t 2 * 16 + 1 * it.val = it.val; rw [hi.2.2.1]; omega
    | ⟨3, _⟩ => show win0_0.index t 3 * 2048 + 1 * n.val = n.val; rw [hi.2.2.2]; omega

/-- The same for the second argument. -/
theorem gtsBlk_apply (c : Dev nD) (t : Fin cfg0.N) (ch : Fin 3) (it : Fin 16) (n : Fin 2048) :
    drop1 (gtsBlk m c t) (ix3 ch it n) = m ((c : Thread nD τ).loc main_arg1) (ix4 (batchOf t) ch it n) := by
  have hi := (idx_facts t).2
  refine (shapeCast_apply _ _ (ix3 ch it n) (ix4 (0 : Fin 1) ch it n) ?_).trans ?_
  · rw [Shape.rowMajor_val_four, Shape.rowMajor_val_three]
    show (((0 * 3 + ch.val) * 16 + it.val) * 2048 + n.val) = (ch.val * 16 + it.val) * 2048 + n.val
    omega
  · show iblk m c 1 t (ix4 (0 : Fin 1) ch it n) = _
    unfold iblk
    rw [View.read_apply]
    show m ((c : Thread nD τ).loc main_arg1) _ = m ((c : Thread nD τ).loc main_arg1) _
    refine congrArg (m ((c : Thread nD τ).loc main_arg1)) (funext fun a => Fin.ext ?_)
    match a with
    | ⟨0, _⟩ => show win0_1.index t 0 * 1 + 1 * 0 = t.val; rw [hi.1]; omega
    | ⟨1, _⟩ => show win0_1.index t 1 * 3 + 1 * ch.val = ch.val; rw [hi.2.1]; omega
    | ⟨2, _⟩ => show win0_1.index t 2 * 16 + 1 * it.val = it.val; rw [hi.2.2.1]; omega
    | ⟨3, _⟩ => show win0_1.index t 3 * 2048 + 1 * n.val = n.val; rw [hi.2.2.2]; omega

/-- The two argument arrays' contents on core `c`, as the specification types them. -/
abbrev predsArr (c : Dev nD) : Arr := m ((c : Thread nD τ).loc main_arg0)
abbrev gtsArr (c : Dev nD) : Arr := m ((c : Thread nD τ).loc main_arg1)

/-- A grid point's accumulator is the sum of its batch entry's 16 slice losses. -/
theorem pointAcc_apply (c : Dev nD) (t : Fin cfg0.N) (j : S1x1.Idx) :
    pointAcc (F := Ideal) m c t j
      = ∑ it : Fin 16, chamfer (pts (gtsArr m c) (batchOf t) it) (pts (predsArr m c) (batchOf t) it) := by
  unfold pointAcc
  rw [blockAcc_apply]
  refine Finset.sum_congr rfl fun it _ => ?_
  simp only [gtsBlk_apply, predsBlk_apply]
  rfl

/-- The output block after the last point, at its one index: the specification's total. -/
theorem finalOut_apply (c : Dev nD) (j : S1x1.Idx) :
    finalOut (F := Ideal) m c j = total (predsArr m c) (gtsArr m c) := by
  unfold finalOut
  simp only [shapeCast_self]
  show ((((Ideal.ofBits .f32 0x00000000#32 + pointAcc (F := Ideal) m c t0_0 j) + pointAcc (F := Ideal) m c t0_1 j)
      + pointAcc (F := Ideal) m c t0_2 j) + pointAcc (F := Ideal) m c t0_3 j) * Ideal.ofBits .f32 0x3C800000#32 = _
  rw [pointAcc_apply, pointAcc_apply, pointAcc_apply, pointAcc_apply, Ideal.ofBits_zero_f32, zero_add, scale_eq_div]
  unfold total lossSum
  rw [Fin.sum_univ_four]
  rfl

/-- @main's rank-0 result at the extended reals: the specification's total of the two argument arrays. -/
theorem result_eq (c : Dev nD) :
    result (F := Ideal) m c = fun _ => total (predsArr m c) (gtsArr m c) := by
  funext i
  unfold result
  refine (shapeCast_apply _ _ i (ix2 (0 : Fin 1) (0 : Fin 1)) ?_).trans (finalOut_apply m c _)
  rw [Shape.rowMajor_val_two]
  have h1 : (((c : Thread nD τ).loc main_v1).ty.shape.rowMajor i).val < 1 :=
    (((c : Thread nD τ).loc main_v1).ty.shape.rowMajor i).isLt
  show 0 * 1 + 0 = _
  omega

end Cert.KernelIdeal.Total

end
-- ==== Proof.RefValue.lean ====
import proofs.«172351_j84782654423732_1_alg».proof.Proof.Gen.ReferenceIdeal.Read
import proofs.«172351_j84782654423732_1_alg».proof.Proof.Spec
import Idealize.ShloMosaic.PureOps.Reduce
import Idealize.ShloMosaic.PureOps.Ideal.Laws
import Idealize.ShloMosaic.Lib.ValueIdx

/-!
  The reference program's result is the specification's chamfer loss.

  Read from the last operation inwards: the quotient by the word of 64 of the sum over the 64 slices (b, t) of
  the two nearest-point sums; each nearest-point sum is a sum of minima, each minimum the fold of `min` from the
  word of +∞ over one axis of the matrix of squared distances; and that matrix at (b, t, n, m) is
  |x_n|² + |y_m|² − 2·⟨x_n, y_m⟩ with x = gts[b, :, t, :] and y = preds[b, :, t, :], term for term as the
  specification writes it. The only arithmetic used is 0 + s = s for the sums' initial value.
-/

noncomputable section

namespace Cert.Chamfer.Ref

open Cert.ReferenceIdeal Cert.ReferenceIdeal.Gen Cert.ReferenceIdeal.Read Idealize.ShloMosaic Idealize.ShloMosaic.TcCoe
  Idealize.ShloMosaic.StableHlo Idealize.ShloMosaic.ValueIdx

/-- The argument arrays' contents, as the reference program types them. -/
abbrev A : Type := (⟨S4x3x16x2048, .f32⟩ : BufTy).Contents (Elt Ideal)

/-! ## The transposed operands -/

/-- The transpose of the second argument at (b, t, n, c) is the argument at (b, c, t, n). -/
theorem v0_at (x1 : A) (b : Fin 4) (t : Fin 16) (n : Fin 2048) (c : Fin 3) :
    val_main_v0 (F := Ideal) x1 (ix4 b t n c) = x1 (ix4 b c t n) := by
  rw [val_main_v0_apply]
  exact congrArg x1 (funext fun a => by
    match a with | ⟨0, _⟩ => rfl | ⟨1, _⟩ => rfl | ⟨2, _⟩ => rfl | ⟨3, _⟩ => rfl)

/-- The transpose of the first argument at (b, t, m, c) is the argument at (b, c, t, m). -/
theorem v1_at (x0 : A) (b : Fin 4) (t : Fin 16) (m : Fin 2048) (c : Fin 3) :
    val_main_v1 (F := Ideal) x0 (ix4 b t m c) = x0 (ix4 b c t m) := by
  rw [val_main_v1_apply]
  exact congrArg x0 (funext fun a => by
    match a with | ⟨0, _⟩ => rfl | ⟨1, _⟩ => rfl | ⟨2, _⟩ => rfl | ⟨3, _⟩ => rfl)

/-! ## The squared norms and the inner products -/

/-- |x_n|² at (b, t, n): the sum over the three channels of the squares. -/
theorem v3_at (x1 : A) (b : Fin 4) (t : Fin 16) (n : Fin 2048) :
    val_main_v3 (F := Ideal) x1 (ix3 b t n) = ∑ c : Fin 3, x1 (ix4 b c t n) * x1 (ix4 b c t n) := by
  rw [val_main_v3_apply]
  simp only [val_main_cst_apply, Ideal.ofBits_def, Ideal.ofBits_zero_f32, zero_add]
  refine Finset.sum_congr rfl fun c _ => ?_
  have e : idx_main_v3 (ix3 b t n) c = ix4 b t n c := funext fun a => by
    match a with | ⟨0, _⟩ => rfl | ⟨1, _⟩ => rfl | ⟨2, _⟩ => rfl | ⟨3, _⟩ => rfl
  rw [e, val_main_v2_apply, v0_at, Ideal.mulf_def]

/-- |y_m|² at (b, t, m). -/
theorem v5_at (x0 : A) (b : Fin 4) (t : Fin 16) (m : Fin 2048) :
    val_main_v5 (F := Ideal) x0 (ix3 b t m) = ∑ c : Fin 3, x0 (ix4 b c t m) * x0 (ix4 b c t m) := by
  rw [val_main_v5_apply]
  simp only [val_main_cst_0_apply, Ideal.ofBits_def, Ideal.ofBits_zero_f32, zero_add]
  refine Finset.sum_congr rfl fun c _ => ?_
  have e : idx_main_v5 (ix3 b t m) c = ix4 b t m c := funext fun a => by
    match a with | ⟨0, _⟩ => rfl | ⟨1, _⟩ => rfl | ⟨2, _⟩ => rfl | ⟨3, _⟩ => rfl
  rw [e, val_main_v4_apply, v1_at, Ideal.mulf_def]

/-- ⟨x_n, y_m⟩ at (b, t, n, m). -/
theorem v6_at (x0 x1 : A) (b : Fin 4) (t : Fin 16) (n m : Fin 2048) :
    val_main_v6 (F := Ideal) x0 x1 (ix4 b t n m) = ∑ c : Fin 3, x1 (ix4 b c t n) * x0 (ix4 b c t m) := by
  rw [val_main_v6_apply]
  refine Finset.sum_congr rfl fun c _ => ?_
  have el : lidx_main_v6 (ix4 b t n m) c = ix4 b t n c := funext fun a => by
    match a with | ⟨0, _⟩ => rfl | ⟨1, _⟩ => rfl | ⟨2, _⟩ => rfl | ⟨3, _⟩ => rfl
  have er : ridx_main_v6 (ix4 b t n m) c = ix4 b t m c := funext fun a => by
    match a with | ⟨0, _⟩ => rfl | ⟨1, _⟩ => rfl | ⟨2, _⟩ => rfl | ⟨3, _⟩ => rfl
  rw [el, er, v0_at, v1_at]

/-! ## The matrix of squared distances -/

/-- The reference's matrix at (b, t, n, m) is the specification's, with x from the second argument and y from the first. -/
theorem v14_at (preds gts : A) (b : Fin 4) (t : Fin 16) (n m : Fin 2048) :
    val_main_v14 (F := Ideal) preds gts (ix4 b t n m) = sqdist (pts gts b t) (pts preds b t) n m := by
  have e9 : idx_main_v7 (idx_main_v9 (ix4 b t n m)) = ix3 b t n := funext fun a => by
    match a with | ⟨0, _⟩ => rfl | ⟨1, _⟩ => rfl | ⟨2, _⟩ => rfl
  have e10 : idx_main_v8 (idx_main_v10 (ix4 b t n m)) = ix3 b t m := funext fun a => by
    match a with | ⟨0, _⟩ => rfl | ⟨1, _⟩ => rfl | ⟨2, _⟩ => rfl
  rw [val_main_v14_apply, val_main_v11_apply, val_main_v13_apply, val_main_v9_apply, val_main_v7_apply, e9, v3_at,
    val_main_v10_apply, val_main_v8_apply, e10, v5_at, val_main_v12_apply, val_main_cst_1_apply, v6_at]
  rfl

/-! ## The two minima -/

/-- The minimum over n (axis 2) at (b, t, m): the fold of `min` from the word of +∞ over the column. -/
theorem v15_at (preds gts : A) (b : Fin 4) (t : Fin 16) (m : Fin 2048) :
    val_main_v15 (F := Ideal) preds gts (ix3 b t m)
      = (Finset.univ : Finset (Fin 2048)).fold min wInf (fun n => sqdist (pts gts b t) (pts preds b t) n m) := by
  unfold val_main_v15
  rw [Host.reduce_eq_fold_single FloatOps.minimumf _ _ reducesTo_S4x16x2048x2048_S4x16x2048_d2 (by decide) h_S_]
  refine Finset.fold_congr (g := fun n => sqdist (pts gts b t) (pts preds b t) n m) fun n _ => ?_
  have e : (by decide : S4x16x2048x2048.Reduces [2] S4x16x2048).lift (ix3 b t m) n = ix4 b t n m := funext fun a => Fin.ext (by
    match a with | ⟨0, _⟩ => rfl | ⟨1, _⟩ => rfl | ⟨2, _⟩ => rfl | ⟨3, _⟩ => rfl)
  show val_main_v14 (F := Ideal) preds gts _ = _
  rw [e, v14_at]

/-- The minimum over m (axis 3) at (b, t, n): the fold of `min` from the word of +∞ over the row. -/
theorem v17_at (preds gts : A) (b : Fin 4) (t : Fin 16) (n : Fin 2048) :
    val_main_v17 (F := Ideal) preds gts (ix3 b t n)
      = (Finset.univ : Finset (Fin 2048)).fold min wInf (fun m => sqdist (pts gts b t) (pts preds b t) n m) := by
  unfold val_main_v17
  rw [Host.reduce_eq_fold_single FloatOps.minimumf _ _ reducesTo_S4x16x2048x2048_S4x16x2048_d3 (by decide) h_S_]
  refine Finset.fold_congr (g := fun m => sqdist (pts gts b t) (pts preds b t) n m) fun m _ => ?_
  have e : (by decide : S4x16x2048x2048.Reduces [3] S4x16x2048).lift (ix3 b t n) m = ix4 b t n m := funext fun a => Fin.ext (by
    match a with | ⟨0, _⟩ => rfl | ⟨1, _⟩ => rfl | ⟨2, _⟩ => rfl | ⟨3, _⟩ => rfl)
  show val_main_v14 (F := Ideal) preds gts _ = _
  rw [e, v14_at]

/-! ## The sums of the minima, the slice's loss, the total -/

/-- The sum over m of the column minima at (b, t). -/
theorem v16_at (preds gts : A) (b : Fin 4) (t : Fin 16) :
    val_main_v16 (F := Ideal) preds gts (ix2 b t) = nearestToY (pts gts b t) (pts preds b t) := by
  rw [val_main_v16_apply]
  simp only [val_main_cst_3_apply, Ideal.ofBits_def, Ideal.ofBits_zero_f32, zero_add]
  refine Finset.sum_congr rfl fun m _ => ?_
  have e : idx_main_v16 (ix2 b t) m = ix3 b t m := funext fun a => by
    match a with | ⟨0, _⟩ => rfl | ⟨1, _⟩ => rfl | ⟨2, _⟩ => rfl
  rw [e, v15_at]

/-- The sum over n of the row minima at (b, t). -/
theorem v18_at (preds gts : A) (b : Fin 4) (t : Fin 16) :
    val_main_v18 (F := Ideal) preds gts (ix2 b t) = nearestToX (pts gts b t) (pts preds b t) := by
  rw [val_main_v18_apply]
  simp only [val_main_cst_5_apply, Ideal.ofBits_def, Ideal.ofBits_zero_f32, zero_add]
  refine Finset.sum_congr rfl fun n _ => ?_
  have e : idx_main_v18 (ix2 b t) n = ix3 b t n := funext fun a => by
    match a with | ⟨0, _⟩ => rfl | ⟨1, _⟩ => rfl | ⟨2, _⟩ => rfl
  rw [e, v17_at]

/-- The slice's loss at (b, t). -/
theorem v19_at (preds gts : A) (b : Fin 4) (t : Fin 16) :
    val_main_v19 (F := Ideal) preds gts (ix2 b t) = chamfer (pts gts b t) (pts preds b t) := by
  rw [val_main_v19_apply, v16_at, v18_at]
  rfl

/-- The reference's result is the specification's total, at its one index. -/
theorem ref_value (preds gts : (⟨Cert.ReferenceIdeal.S4x3x16x2048, .f32⟩ : BufTy).Contents (Elt Ideal)) :
    Cert.ReferenceIdeal.Read.val_main_v21 (F := Ideal) preds gts = fun _ => Cert.Chamfer.total preds gts := by
  funext i
  rw [val_main_v21_apply, val_main_v20_apply, sum_idx2]
  simp only [val_main_cst_6_apply, val_main_cst_7_apply, Ideal.ofBits_def, Ideal.ofBits_zero_f32, zero_add, v19_at,
    Ideal.hostDivf_def]
  rfl

end Cert.Chamfer.Ref

end
-- ==== Proof.lean ====
/-
  A chamfer loss over [B, C, T, N] = [4, 3, 16, 2048] point clouds: the kernel against its jnp reference, on the
  extended reals.

  For a batch entry b and a frame t, with x = gts[b, :, t, :] and y = preds[b, :, t, :] (2048 points in dimension 3
  each), both programs form the matrix P[n, m] = |x_n|² + |y_m|² − 2·⟨x_n, y_m⟩ and the slice's loss
  Σ_m min_n P[n, m] + Σ_n min_m P[n, m], and return the mean of the 64 slices' losses (Proof/Spec.lean).
  The reference does it on whole arrays (Proof/RefValue.lean reads its operations one by one). The kernel runs a grid
  over b; at each point it walks the 16 frames, each frame one and the same step on a (1,1) accumulator
  (Proof/KernelIter.lean, read at the extended reals in Proof/KernelIterValue.lean), adds the point's accumulator to a
  (1,1) output block carried across the grid, and at the last point scales by 2⁻⁶ (Proof/Pieces.lean: what each of the
  three control cases leaves; Proof/KernelRun.lean: the four points and the reshape after the call;
  Proof/KernelValue.lean: the value). The two sides differ only in how the additions are grouped — addition of extended
  reals is associative and commutative, so no finiteness is used — and in the last step, where multiplying by 2⁻⁶ is
  dividing by 64. The idealization rewrote nothing, so its conjunct is `True`.
-/
import proofs.«172351_j84782654423732_1_alg».proof.Defs
import proofs.«172351_j84782654423732_1_alg».proof.Proof.Gen.Kernel
import proofs.«172351_j84782654423732_1_alg».proof.Proof.Gen.Kernel.Skeleton
import proofs.«172351_j84782654423732_1_alg».proof.Proof.Gen.Kernel.Launch
import proofs.«172351_j84782654423732_1_alg».proof.Proof.Gen.Kernel.Points
import proofs.«172351_j84782654423732_1_alg».proof.Proof.Gen.Kernel.Frame
import proofs.«172351_j84782654423732_1_alg».proof.Proof.Gen.KernelIdeal
import proofs.«172351_j84782654423732_1_alg».proof.Proof.Gen.KernelIdeal.Skeleton
import proofs.«172351_j84782654423732_1_alg».proof.Proof.Gen.KernelIdeal.Launch
import proofs.«172351_j84782654423732_1_alg».proof.Proof.Gen.KernelIdeal.Points
import proofs.«172351_j84782654423732_1_alg».proof.Proof.Gen.KernelIdeal.Frame
import proofs.«172351_j84782654423732_1_alg».proof.Proof.Gen.ReferenceIdeal
import proofs.«172351_j84782654423732_1_alg».proof.Proof.Gen.ReferenceIdeal.Run
import proofs.«172351_j84782654423732_1_alg».proof.Proof.Gen.ReferenceIdeal.Read
import proofs.«172351_j84782654423732_1_alg».proof.Proof.Gen.Pre_finite_inputs
import proofs.«172351_j84782654423732_1_alg».proof.Proof.KernelValue
import proofs.«172351_j84782654423732_1_alg».proof.Proof.RefValue
import Idealize.ShloMosaic.Adequacy
import Idealize.ShloMosaic.Init

noncomputable section

namespace Cert.Proof

open Idealize.ShloMosaic Idealize.SL.Sem

/-- The three programs run, fault-free, and keep their arguments: the two kernels by their generated frames, the
    reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- On the extended reals the kernel's result is the specification's total of its two arguments, and so is the
    reference's, of arguments that agree. -/
theorem algebraic : Cert.algebraic_KernelIdeal_ReferenceIdeal := by
  intro m ρ m' ρ' _ hagree
  refine ⟨fun c => Cert.KernelIdeal.RunValue.result (F := Ideal) m c, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Chamfer.Ref.ref_value, (hagree c).1, (hagree c).2]
  exact (Cert.KernelIdeal.Total.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
